-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x1024x4 : S_.BroadcastsInDim S512x1024x4 (![] : Fin 0 → Fin S512x1024x4.rank)
  reducesTo_S512x1024x4_S_d0_1_2 : S512x1024x4.ReducesTo [0, 1, 2] S_

variable [Facts]

def fn_part1 {F : FTy → Type} [FloatOps F] (main_v13 : IVec S_ 1) (main_v16 : IVec S512x1024x4 1) : IVec S_ 1 :=
  let main_c_5 : IVec S_ 1 := constantI S_ 1 1#1
  let main_v17 : IVec S_ 1 := (fun x v => Host.reduce IntOp.andi x v reducesTo_S512x1024x4_S_d0_1_2 h_S_) main_v16 main_c_5
  let main_v18 : IVec S_ 1 := andi main_v13 main_v17
  main_v18

def fn {F : FTy → Type} [FloatOps F] (main_arg0 : FVec F S128x1024 .f32) (main_arg1 : FVec F S512x1024 .f32) (main_arg2 : FVec F S512 .f32) (main_arg3 : FVec F S512x1024x4 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024x4 .f32 := Host.absf main_arg3
  let main_cst_4 : FVec F S_ .f32 := constant S_ .f32 0x7F800000#32
  let main_v15 : FVec F S512x1024x4 .f32 := broadcastInDim S512x1024x4 ![] bcast_S_S512x1024x4 main_cst_4
  let main_v16 : IVec S512x1024x4 1 := cmpf .olt main_v14 main_v15
  fn_part1 (F := F) main_v13 main_v16
-- ==== Kernel.lean ====
abbrev S128x1024 : Shape := ⟨2, ![128, 1024]⟩
abbrev S512x1024 : Shape := ⟨2, ![512, 1024]⟩
abbrev S512 : Shape := ⟨1, ![512]⟩
abbrev S512x1024x4 : Shape := ⟨3, ![512, 1024, 4]⟩
abbrev S1x512 : Shape := ⟨2, ![1, 512]⟩
abbrev S128x512 : Shape := ⟨2, ![128, 512]⟩
abbrev S128x128 : Shape := ⟨2, ![128, 128]⟩
abbrev S128x128x4 : Shape := ⟨3, ![128, 128, 4]⟩
abbrev S1x128 : Shape := ⟨2, ![1, 128]⟩
abbrev S128x128x1 : Shape := ⟨3, ![128, 128, 1]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 6
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S512, .f32⟩
  | .hbm, ⟨3, _⟩ => ⟨S512x1024x4, .f32⟩
  | .hbm, ⟨4, _⟩ => ⟨S1x512, .f32⟩
  | .hbm, ⟨5, _⟩ => ⟨S128x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128x4, .f32⟩
  | .local _ .vmem, ⟨5, _⟩ => ⟨S128x128x4, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_14 : BitVec 32 := 0#32
  let v44 : BitVec 1 := Scalar.cmpi .ne v43 c0_i32_14
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S512_S1x512 : S512.ShapeCasts S1x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x128x4_S128x128x4_0_0_0 : ∀ a, (![0, 0, 0] : Fin 3 → Nat) a + S128x128x4.size a ≤ S128x128x4.size a
  h_S128x128x4 : 0 < S128x128x4.numel
  reduces_S128x128x4_S128x128 : S128x128x4.Reduces [2] S128x128
  shapeCasts_S128x128_S128x128x1 : S128x128.ShapeCasts S128x128x1
  broadcasts_S128x128x1_S128x128x4 : S128x128x1.Broadcasts S128x128x4
  slices_S128x128x4_o0_0_1_S128x128x1 : S128x128x4.Slices ![0, 0, 1] S128x128x1
  shapeCasts_S128x128x1_S128x128 : S128x128x1.ShapeCasts S128x128
  slices_S128x128x4_o0_0_2_S128x128x1 : S128x128x4.Slices ![0, 0, 2] S128x128x1
  slices_S128x128x4_o0_0_3_S128x128x1 : S128x128x4.Slices ![0, 0, 3] S128x128x1
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x1024.size a
  hwx0_1 : ∀ i : grid0.Coords, EltTy.bits .f32 = 32 ∨ (Rect.block (s := S512x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x4.size a ≤ S512x1024x4.size a
  hwx0_2 : ∀ i : grid0.Coords, EltTy.bits .f32 = 32 ∨ (Rect.block (s := S512x1024x4) S128x128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x512.size a
  hwx0_3 : ∀ i : grid0.Coords, EltTy.bits .f32 = 32 ∨ (Rect.block (s := S1x512) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x512.size a
  hwx0_4 : ∀ i : grid0.Coords, EltTy.bits .f32 = 32 ∨ (Rect.block (s := S128x512) S128x128.size (cc0_transform_4 i) (hinb0_4 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x1024 : Shape := ⟨2, ![128, 1024]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩
abbrev S512x1024x1 : Shape := ⟨3, ![512, 1024, 1]⟩
abbrev S128x1x1024 : Shape := ⟨3, ![128, 1, 1024]⟩
abbrev S1x512x1024 : Shape := ⟨3, ![1, 512, 1024]⟩
abbrev S128x512x1024 : Shape := ⟨3, ![128, 512, 1024]⟩
abbrev S128x512 : Shape := ⟨2, ![128, 512]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S512, .f32⟩
  | .hbm, ⟨3, _⟩ => ⟨S512x1024x4, .f32⟩
  | .hbm, ⟨4, _⟩ => ⟨S_, .f32⟩
  | .hbm, ⟨5, _⟩ => ⟨S512x1024x4, .f32⟩
  | .hbm, ⟨6, _⟩ => ⟨S512x1024x4, .f32⟩
  | .hbm, ⟨7, _⟩ => ⟨S_, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024x1, .f32⟩
  | .hbm, ⟨13, _⟩ => ⟨S512x1024x4, .f32⟩
  | .hbm, ⟨14, _⟩ => ⟨S512x1024x4, .f32⟩
  | .hbm, ⟨15, _⟩ => ⟨S512x1024x4, .f32⟩
  | .hbm, ⟨16, _⟩ => ⟨S_, .f32⟩
  | .hbm, ⟨17, _⟩ => ⟨S512x1024, .f32⟩
  | .hbm, ⟨18, _⟩ => ⟨S512x1024x1, .f32⟩
  | .hbm, ⟨19, _⟩ => ⟨S512x1024x4, .f32⟩
  | .hbm, ⟨20, _⟩ => ⟨S512x1024x4, .f32⟩
  | .hbm, ⟨21, _⟩ => ⟨S512x1024x1, .f32⟩
  | .hbm, ⟨22, _⟩ => ⟨S512x1024, .f32⟩
  | .hbm, ⟨23, _⟩ => ⟨S512x1024, .f32⟩
  | .hbm, ⟨24, _⟩ => ⟨S512x1024x1, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S512x1024x1, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S128x1x1024, .f32⟩
  | .hbm, ⟨35, _⟩ => ⟨S1x512x1024, .f32⟩
  | .hbm, ⟨36, _⟩ => ⟨S128x512x1024, .f32⟩
  | .hbm, ⟨37, _⟩ => ⟨S128x512x1024, .f32⟩
  | .hbm, ⟨38, _⟩ => ⟨S128x512x1024, .f32⟩
  | .hbm, ⟨39, _⟩ => ⟨S128x512x1024, .f32⟩
  | .hbm, ⟨40, _⟩ => ⟨S_, .f32⟩
  | .hbm, ⟨41, _⟩ => ⟨S128x512, .f32⟩
  | .hbm, ⟨42, _⟩ => ⟨S1x512, .f32⟩
  | .hbm, ⟨43, _⟩ => ⟨S128x512, .f32⟩
  | .hbm, ⟨44, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  bcast_S_S512x1024x4 : S_.BroadcastsInDim S512x1024x4 (![] : Fin 0 → Fin S512x1024x4.rank)
  reducesTo_S512x1024x4_S512x1024_d2 : S512x1024x4.ReducesTo [2] S512x1024
  h_S_ : 0 < S_.numel
  bcast_S_S512x1024 : S_.BroadcastsInDim S512x1024 (![] : Fin 0 → Fin S512x1024.rank)
  bcast_S512x1024_S512x1024x1_0_1 : S512x1024.BroadcastsInDim S512x1024x1 (![0, 1] : Fin 2 → Fin S512x1024x1.rank)
  bcast_S512x1024x1_S512x1024x4_0_1_2 : S512x1024x1.BroadcastsInDim S512x1024x4 (![0, 1, 2] : Fin 3 → Fin S512x1024x4.rank)
  slices_S512x1024x4_S512x1024x1_0_0_1 : S512x1024x4.Slices ![0, 0, 1] S512x1024x1
  shapeCasts_S512x1024x1_S512x1024 : S512x1024x1.ShapeCasts S512x1024
  slices_S512x1024x4_S512x1024x1_0_0_2 : S512x1024x4.Slices ![0, 0, 2] S512x1024x1
  slices_S512x1024x4_S512x1024x1_0_0_3 : S512x1024x4.Slices ![0, 0, 3] S512x1024x1
  bcast_S128x1024_S128x1x1024_0_2 : S128x1024.BroadcastsInDim S128x1x1024 (![0, 2] : Fin 2 → Fin S128x1x1024.rank)
  bcast_S512x1024_S1x512x1024_1_2 : S512x1024.BroadcastsInDim S1x512x1024 (![1, 2] : Fin 2 → Fin S1x512x1024.rank)
  bcast_S128x1x1024_S128x512x1024_0_1_2 : S128x1x1024.BroadcastsInDim S128x512x1024 (![0, 1, 2] : Fin 3 → Fin S128x512x1024.rank)
  bcast_S1x512x1024_S128x512x1024_0_1_2 : S1x512x1024.BroadcastsInDim S128x512x1024 (![0, 1, 2] : Fin 3 → Fin S128x512x1024.rank)
  reducesTo_S128x512x1024_S128x512_d2 : S128x512x1024.ReducesTo [2] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)

variable [Facts₀]

class Facts : Prop extends Facts₀ where

variable [Facts]
-- ==== Proof.LibSumRuns.lean ====
/-
  A finite sum taken in runs, with a running total.

  A total that starts at the first value and adds each next value to what it has so far is the sum of the values
  met (`running_eq_sum`); a sum over `a · b` consecutive naturals is the sum over `a` runs of the sums over each run's
  `b` members (`sum_runs`); so a running total of `a + 1` run sums of length `b` is the sum over all `b · (a + 1)`
  (`running_runs`). Everything holds in any commutative additive monoid: only associativity and commutativity of
  addition are used, so it applies to the extended reals at the infinities too. It imports no program.
-/
import Mathlib.Algebra.BigOperators.Group.Finset.Basic

namespace Cert.SumRuns

/-- A running total: the first value, then each next value added to the total so far. -/
def running {M : Type*} [Add M] (r : ℕ → M) : ℕ → M
  | 0 => r 0
  | k + 1 => running r k + r (k + 1)

/-- The running total after `k` steps is the sum of the first `k + 1` values. -/
theorem running_eq_sum {M : Type*} [AddCommMonoid M] (r : ℕ → M) (k : ℕ) :
    running r k = ∑ i ∈ Finset.range (k + 1), r i := by
  induction k with
  | zero => simp [running]
  | succ k ih => rw [running, ih, Finset.sum_range_succ (n := k + 1)]

/-- A sum over `b · a` consecutive naturals is the sum over `a` runs of the sum over each run's `b` members. -/
theorem sum_runs {M : Type*} [AddCommMonoid M] (f : ℕ → M) (b : ℕ) (a : ℕ) :
    ∑ k ∈ Finset.range a, ∑ i ∈ Finset.range b, f (b * k + i) = ∑ n ∈ Finset.range (b * a), f n := by
  induction a with
  | zero => simp
  | succ a ih => rw [Finset.sum_range_succ, ih, Nat.mul_succ, Finset.sum_range_add]

/-- A running total of the sums of runs `0 … a`, each of `b` consecutive values, is the sum of the first `b · (a + 1)` values. -/
theorem running_runs {M : Type*} [AddCommMonoid M] (f : ℕ → M) (b a : ℕ) :
    running (fun k => ∑ i ∈ Finset.range b, f (b * k + i)) a = ∑ n ∈ Finset.range (b * (a + 1)), f n := by
  rw [running_eq_sum]; exact sum_runs f b (a + 1)

end Cert.SumRuns
-- ==== Proof.MixSpec.lean ====
/-
  The layer as mathematics, over the extended reals.

  An output entry is  y(p, q) = (∑ i < 1024, tanh (x(p, i) · w_eff(q, i))) + b(q),  where the effective weight
  w_eff(q, i) mixes three functions of the weight W(q, i) — the identity, tanh and sine — by entries 1, 2, 3 of the
  softmax of the four logits θ(q, i, ·) (entry 0 belongs to the zero function and contributes nothing). The softmax is
  the stabilised one: exp (θ a − M) / ∑ₖ exp (θ k − M) with M the largest logit.

  The sum over i may be taken in eight runs of 128, each run added to the total so far: addition of extended reals
  is associative and commutative, so the regrouping holds at the infinities too, and nothing here asks an input to be
  finite. Dividing by the constant one is the identity on every extended real (x · 1⁻¹ = x).
-/
import Idealize.ShloMosaic.PureOps.Ideal.Laws
import Idealize.ShloMosaic.Lib.ValueIdx
import proofs.«117041_j44813688767076_1_alg».proof.Proof.LibSumRuns

noncomputable section

namespace Cert.MixLayer

open Idealize.ShloMosaic Idealize.ShloMosaic.ValueIdx

/-! ## One entry of the effective weight -/

/-- The value both programs start a maximum from: the pattern of minus infinity. -/
abbrev floor : EReal := Ideal.ofBits .f32 0xFF800000#32

/-- The stabiliser of four logits: their maximum taken from the floor, and once more against the floor. -/
def peak (θ : Fin 4 → EReal) : EReal := max floor (Finset.univ.fold max floor θ)

/-- Softmax weight `a` of four logits. -/
def weight (θ : Fin 4 → EReal) (a : Fin 4) : EReal :=
  Ideal.div (Ideal.exp (θ a - peak θ)) (∑ k : Fin 4, Ideal.exp (θ k - peak θ))

/-- The effective weight: the identity, tanh and sine of `w`, mixed by softmax weights 1, 2 and 3. -/
def mix (θ : Fin 4 → EReal) (w : EReal) : EReal :=
  weight θ 1 * w + weight θ 2 * Ideal.tanh w + weight θ 3 * Ideal.sin w

/-- One summand of an output entry. -/
def term (x : EReal) (θ : Fin 4 → EReal) (w : EReal) : EReal := Ideal.tanh (x * mix θ w)

/-! ## The whole layer -/

/-- Summand `n` of output entry `(p, q)`; zero past the last column, so that it is a function of a natural number. -/
def summand (X : (⟨2, ![128, 1024]⟩ : Shape).Idx → EReal) (W : (⟨2, ![512, 1024]⟩ : Shape).Idx → EReal)
    (Θ : (⟨3, ![512, 1024, 4]⟩ : Shape).Idx → EReal) (p : Fin 128) (q : Fin 512) (n : ℕ) : EReal :=
  if h : n < 1024 then term (X (ix2 p ⟨n, h⟩)) (fun a => Θ (ix3 q ⟨n, h⟩ a)) (W (ix2 q ⟨n, h⟩)) else 0

/-- The layer: entry `(p, q)` is the sum of its 1024 summands, plus the bias of column `q`. -/
def layer (X : (⟨2, ![128, 1024]⟩ : Shape).Idx → EReal) (W : (⟨2, ![512, 1024]⟩ : Shape).Idx → EReal)
    (B : (⟨1, ![512]⟩ : Shape).Idx → EReal) (Θ : (⟨3, ![512, 1024, 4]⟩ : Shape).Idx → EReal) :
    (⟨2, ![128, 512]⟩ : Shape).Idx → EReal :=
  fun j => (∑ n ∈ Finset.range 1024, summand X W Θ (j 0) (j 1) n) + B (ix1 (j 1))

/-! ## A sum taken in runs -/

export Cert.SumRuns (running running_eq_sum sum_runs)

/-- A total kept over eight runs of 128 is the sum over all 1024. -/
theorem running_runs {M : Type*} [AddCommMonoid M] (f : ℕ → M) :
    running (fun k => ∑ i ∈ Finset.range 128, f (128 * k + i)) 7 = ∑ n ∈ Finset.range 1024, f n :=
  Cert.SumRuns.running_runs f 128 7

/-! ## Constants -/

/-- The pattern of `1.0` denotes one. -/
theorem ofBits_one : Ideal.ofBits .f32 0x3F800000#32 = 1 := by
  simp [Ideal.ofBits, Ideal.ieee, -EReal.coe_mul]; norm_num

/-- Dividing by one changes nothing, at the infinities too. -/
theorem div_one (x : EReal) : Ideal.div x 1 = x := by
  unfold Ideal.div
  rw [if_neg one_ne_zero, inv_one, mul_one]

end Cert.MixLayer

end
-- ==== Proof.BodyPieces.lean ====
/-
  What one run of the body leaves behind, case by case, as values. The body keeps a running total in a scratch block:
  at the first point of a run of eight (k = 0) it clears the total and then updates it, at the other points it updates
  what the point before left, and at the last point (k = 7) it also writes the total plus the bias block to the
  output block. Each statement reads the stores the run made back as one value of the point's input blocks.
-/
import proofs.«117041_j44813688767076_1_alg».proof.Proof.Gen.KernelIdeal.Frame
import Idealize.ShloMosaic.Lib.Pipeline.Value
import Idealize.ShloMosaic.Lib.Tactic

noncomputable section

namespace Cert.KernelIdeal.BodyPieces

open Idealize.ShloMosaic Idealize.ShloMosaic.TcCoe Idealize.SL.Sem Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- The running total after one step of the body: the update of the total `acc` by the point's logit, weight and input blocks. -/
abbrev step (θb : Vec F S128x128x4 .f32) (wb xb acc : Vec F S128x128 .f32) : Vec F S128x128 .f32 :=
  k0_pay1 (k0_pay4 θb wb xb acc)

/-- At a first point of a run (k = 0) the body clears the total, reads the cleared total back and updates it: the scratch ends at the update of the zero block. -/
theorem scratch_first (c : Dev nD) (i : grid0.Coords) (a3 : Memref sig .tc .vmem S128x128 .f32) (h3 : a3.IsWhole) (a4 : Memref sig .tc .vmem S128x128 .f32) (h4 : a4.IsWhole) (a5 : Memref sig .tc .vmem S128x128x4 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : cond0_0 i) (hc1 : ¬cond0_1 i)
    (x0 x1 : Vec F S128x128 .f32) (x2 : Vec F S128x128x4 .f32) (x3 : Vec F S1x128 .f32) :
    sout0_A_0 c i a3 h3 a4 h4 a5 h5 a6 h6 a7 h7 a8 h8 hc0 hc1 x0 x1 x2 x3 = step x2 x1 x0 k0_pay3 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S128x128) origin2, View.readCov_unit_zero (S := S128x128) _ origin2]
  simp only [View.readAt_eq_ld, h3.read_unread, h4.read_unread, h5.read_unread, View.ld_unit_zero (S := S128x128) origin2,
    View.ld_unit_zero (S := S128x128x4) origin3]

/-- At a middle point (0 < k < 7) the scratch ends at the update of what the point before left. -/
theorem scratch_middle (c : Dev nD) (i : grid0.Coords) (a3 : Memref sig .tc .vmem S128x128 .f32) (h3 : a3.IsWhole) (a4 : Memref sig .tc .vmem S128x128 .f32) (h4 : a4.IsWhole) (a5 : Memref sig .tc .vmem S128x128x4 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : ¬cond0_0 i) (hc1 : ¬cond0_1 i)
    (x0 x1 : Vec F S128x128 .f32) (x2 : Vec F S128x128x4 .f32) (x3 : Vec F S1x128 .f32) (xs : Vec F S128x128 .f32) :
    sout0_B_0 c i a3 h3 a4 h4 a5 h5 a6 h6 a7 h7 a8 h8 hc0 hc1 x0 x1 x2 x3 xs = step x2 x1 x0 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero origin2]
  simp only [View.readAt_eq_ld, h3.read_unread, h4.read_unread, h5.read_unread, h8.read_unread, View.ld_unit_zero (S := S128x128) origin2,
    View.ld_unit_zero (S := S128x128x4) origin3]

/-- At a last point (k = 7) the scratch ends the same way, -/
theorem scratch_last (c : Dev nD) (i : grid0.Coords) (a3 : Memref sig .tc .vmem S128x128 .f32) (h3 : a3.IsWhole) (a4 : Memref sig .tc .vmem S128x128 .f32) (h4 : a4.IsWhole) (a5 : Memref sig .tc .vmem S128x128x4 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : ¬cond0_0 i) (hc1 : cond0_1 i)
    (x0 x1 : Vec F S128x128 .f32) (x2 : Vec F S128x128x4 .f32) (x3 : Vec F S1x128 .f32) (xs : Vec F S128x128 .f32) :
    sout0_C_0 c i a3 h3 a4 h4 a5 h5 a6 h6 a7 h7 a8 h8 hc0 hc1 x0 x1 x2 x3 xs = step x2 x1 x0 xs := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero origin2]
  simp only [View.readAt_eq_ld, h3.read_unread, h4.read_unread, h5.read_unread, h8.read_unread, View.ld_unit_zero (S := S128x128) origin2,
    View.ld_unit_zero (S := S128x128x4) origin3]

/-- and the output block is that final total, read back, plus the bias block. -/
theorem out_last (c : Dev nD) (i : grid0.Coords) (a3 : Memref sig .tc .vmem S128x128 .f32) (h3 : a3.IsWhole) (a4 : Memref sig .tc .vmem S128x128 .f32) (h4 : a4.IsWhole) (a5 : Memref sig .tc .vmem S128x128x4 .f32) (h5 : a5.IsWhole) (a6 : Memref sig .tc .vmem S1x128 .f32) (h6 : a6.IsWhole) (a7 : Memref sig .tc .vmem S128x128 .f32) (h7 : a7.IsWhole) (a8 : Memref sig .tc .vmem S128x128 .f32) (h8 : a8.IsWhole) (hc0 : ¬cond0_0 i) (hc1 : cond0_1 i)
    (x0 x1 : Vec F S128x128 .f32) (x2 : Vec F S128x128x4 .f32) (x3 : Vec F S1x128 .f32) (xs : Vec F S128x128 .f32) :
    out0_C_4 c i a3 h3 a4 h4 a5 h5 a6 h6 a7 h7 a8 h8 hc0 hc1 x0 x1 x2 x3 xs = k0_pay2 (step x2 x1 x0 xs) x3 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero origin2, View.readCov_unit_zero (S := S128x128) _ origin2]
  simp only [View.readAt_eq_ld, h3.read_unread, h4.read_unread, h5.read_unread, h6.read_unread, h8.read_unread, View.ld_unit_zero (S := S128x128) origin2,
    View.ld_unit_zero (S := S128x128x4) origin3, View.ld_unit_zero (S := S1x128) origin2]

end Cert.KernelIdeal.BodyPieces

end
-- ==== Proof.BlockValue.lean ====
/-
  One step of the body as mathematics: from a point's blocks of logits θ, weights W and inputs x, and the running
  total acc, the body leaves at entry (p, q) of the total
      acc(p, q) + ∑ i < 128, tanh (x(p, i) · w_eff(q, i)),
  with w_eff(q, i) the softmax mix of the specification at the logits θ(q, i, ·) and the weight W(q, i).
  The body's intermediate blocks are named here after what they hold; the printed update is their composition, and
  each is read at an index: a cast or broadcast moves an index, a slice picks one of the four softmax weights, and
  the two reductions are a maximum and a sum over the last axis.
-/
import proofs.«117041_j44813688767076_1_alg».proof.Proof.Gen.KernelIdeal.Frame
import proofs.«117041_j44813688767076_1_alg».proof.Proof.MixSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Idealize.ShloMosaic Idealize.ShloMosaic.ValueIdx Cert.KernelIdeal Cert.KernelIdeal.Gen

/-! ## Layout steps of the body, read at an index -/

section Layout
variable {α : Type}

/-- A [128,128] array given a trailing unit axis: entry (q, i, 0) is entry (q, i). -/
theorem addLast_apply (v : S128x128.Idx → α) (h : S128x128.ShapeCasts S128x128x1) (q i : Fin 128) (u : Fin 1) :
    shapeCast S128x128x1 v h (ix3 q i u) = v (ix2 q i) :=
  shapeCast_apply v h _ _ (by
    have hu : u.val = 0 := by omega
    rw [Shape.rowMajor_val_two, Shape.rowMajor_val_three]
    show q.val * 128 + i.val = (q.val * 128 + i.val) * 1 + u.val
    omega)

/-- ... and the trailing unit axis dropped again. -/
theorem dropLast_apply (v : S128x128x1.Idx → α) (h : S128x128x1.ShapeCasts S128x128) (q i : Fin 128) :
    shapeCast S128x128 v h (ix2 q i) = v (ix3 q i (0 : Fin 1)) :=
  shapeCast_apply v h _ _ (by
    rw [Shape.rowMajor_val_two, Shape.rowMajor_val_three]
    show (q.val * 128 + i.val) * 1 + 0 = q.val * 128 + i.val
    omega)

/-- A trailing unit axis broadcast to four: every entry (q, i, a) is entry (q, i, 0). -/
theorem spreadLast_apply (v : S128x128x1.Idx → α) (h : S128x128x1.Broadcasts S128x128x4) (q i : Fin 128) (a : Fin 4) :
    broadcastTo S128x128x4 v h (ix3 q i a) = v (ix3 q i (0 : Fin 1)) :=
  broadcastTo_apply v h _ _ fun ax => match ax with
    | ⟨0, _⟩ => rfl
    | ⟨1, _⟩ => rfl
    | ⟨2, _⟩ => rfl

/-- The slice keeping position `o` of the last axis. -/
theorem pick_apply (o : Nat) (ho : o < 4) (v : S128x128x4.Idx → α) (h : S128x128x4.Slices ![0, 0, o] S128x128x1) (q i : Fin 128) (u : Fin 1) :
    extractStridedSlice S128x128x1 ![0, 0, o] v h (ix3 q i u) = v (ix3 q i (⟨o, ho⟩ : Fin 4)) :=
  extractStridedSlice_apply _ v h _ _ fun ax => match ax with
    | ⟨0, _⟩ => by show q.val = 0 + q.val; omega
    | ⟨1, _⟩ => by show i.val = 0 + i.val; omega
    | ⟨2, _⟩ => by show o = o + u.val; omega

/-- A [128,128] array given a middle unit axis: entry (p, 0, i) is entry (p, i). -/
theorem addMid_apply (v : S128x128.Idx → α) (h : S128x128.ShapeCasts S128x1x128) (p : Fin 128) (u : Fin 1) (i : Fin 128) :
    shapeCast S128x1x128 v h (ix3 p u i) = v (ix2 p i) :=
  shapeCast_apply v h _ _ (by
    have hu : u.val = 0 := by omega
    rw [Shape.rowMajor_val_two, Shape.rowMajor_val_three]
    show p.val * 128 + i.val = (p.val * 1 + u.val) * 128 + i.val
    omega)

/-- The middle unit axis broadcast to 128: entry (p, q, i) is entry (p, 0, i). -/
theorem spreadMid_apply (v : S128x1x128.Idx → α) (h : S128x1x128.Broadcasts S128x128x128) (p q i : Fin 128) :
    broadcastTo S128x128x128 v h (ix3 p q i) = v (ix3 p (0 : Fin 1) i) :=
  broadcastTo_apply v h _ _ fun ax => match ax with
    | ⟨0, _⟩ => rfl
    | ⟨1, _⟩ => rfl
    | ⟨2, _⟩ => rfl

/-- The leading unit axis broadcast to 128: entry (p, q, i) is entry (0, q, i). -/
theorem spreadLead_apply (v : S1x128x128.Idx → α) (h : S1x128x128.Broadcasts S128x128x128) (p q i : Fin 128) :
    broadcastTo S128x128x128 v h (ix3 p q i) = v (ix3 (0 : Fin 1) q i) :=
  broadcastTo_apply v h _ _ fun ax => match ax with
    | ⟨0, _⟩ => rfl
    | ⟨1, _⟩ => rfl
    | ⟨2, _⟩ => rfl

/-- Inserting coordinate `k` on the last axis of (q, i). -/
theorem lift4 (h : S128x128x4.Reduces [2] S128x128) (q i : Fin 128) (k : Fin 4) : h.lift (ix2 q i) k = ix3 q i k :=
  funext fun ax => match ax with
    | ⟨0, _⟩ => rfl
    | ⟨1, _⟩ => rfl
    | ⟨2, _⟩ => rfl

theorem lift128 (h : S128x128x128.Reduces [2] S128x128) (p q : Fin 128) (k : Fin 128) : h.lift (ix2 p q) k = ix3 p q k :=
  funext fun ax => match ax with
    | ⟨0, _⟩ => rfl
    | ⟨1, _⟩ => rfl
    | ⟨2, _⟩ => rfl

end Layout

/-! ## The body's blocks, named, and read at an index -/

/-- The stabiliser of each (row q, column i) of a logit block: the largest of its four logits. -/
def stabBlock (θb : Vec Ideal S128x128x4 .f32) : FVec Ideal S128x128 .f32 :=
  maximumf (broadcast S128x128 (Scalar.ofBits .f32 0xFF800000#32))
    (multiReduction .maximumf [2] S128x128 θb 0xFF800000#32 reduces_S128x128x4_S128x128 (.inl rfl) rfl)

/-- The exponentials of the stabilised logits. -/
def expBlock (θb : Vec Ideal S128x128x4 .f32) : FVec Ideal S128x128x4 .f32 :=
  exp (subf θb (broadcastTo S128x128x4 (shapeCast S128x128x1 (stabBlock θb) shapeCasts_S128x128_S128x128x1)
    broadcasts_S128x128x1_S128x128x4))

/-- The softmax weights: each exponential over the sum of its four. -/
def softBlock (θb : Vec Ideal S128x128x4 .f32) : FVec Ideal S128x128x4 .f32 :=
  divf (expBlock θb) (broadcastTo S128x128x4 (shapeCast S128x128x1
    (multiReduction .add [2] S128x128 (expBlock θb) 0x00000000#32 reduces_S128x128x4_S128x128 (.inl rfl) rfl)
    shapeCasts_S128x128_S128x128x1) broadcasts_S128x128x1_S128x128x4)

/-- Softmax weight number `o` as a [128,128] block. -/
def atomBlock (θb : Vec Ideal S128x128x4 .f32) (o : Nat) (h : S128x128x4.Slices ![0, 0, o] S128x128x1) : FVec Ideal S128x128 .f32 :=
  shapeCast S128x128 (extractStridedSlice S128x128x1 ![0, 0, o] (softBlock θb) h) shapeCasts_S128x128x1_S128x128

/-- The effective weights of a block. -/
def mixBlock (θb : Vec Ideal S128x128x4 .f32) (wb : Vec Ideal S128x128 .f32) : FVec Ideal S128x128 .f32 :=
  addf (addf (mulf (atomBlock θb 1 slices_S128x128x4_o0_0_1_S128x128x1) wb)
      (mulf (atomBlock θb 2 slices_S128x128x4_o0_0_2_S128x128x1) (tanh wb)))
    (mulf (atomBlock θb 3 slices_S128x128x4_o0_0_3_S128x128x1) (sin wb))

/-- The products x(p, i) · w_eff(q, i) over (p, q, i). -/
def prodBlock (θb : Vec Ideal S128x128x4 .f32) (wb xb : Vec Ideal S128x128 .f32) : FVec Ideal S128x128x128 .f32 :=
  mulf (broadcastTo S128x128x128 (shapeCast S128x1x128 xb shapeCasts_S128x128_S128x1x128) broadcasts_S128x1x128_S128x128x128)
    (broadcastTo S128x128x128 (shapeCast S1x128x128 (mixBlock θb wb) shapeCasts_S128x128_S1x128x128) broadcasts_S1x128x128_S128x128x128)

/-- The body's update of the running total is: the total so far, plus the sum over the block's columns of tanh of the products. -/
theorem update_eq (θb : Vec Ideal S128x128x4 .f32) (wb xb acc : Vec Ideal S128x128 .f32) :
    k0_pay4 (F := Ideal) θb wb xb acc
      = addf acc (multiReduction .add [2] S128x128 (tanh (prodBlock θb wb xb)) 0x00000000#32 reduces_S128x128x128_S128x128 (.inl rfl) rfl) := by
  unfold k0_pay4
  dsimp only
  unfold prodBlock mixBlock atomBlock softBlock expBlock stabBlock
  with_reducible rfl

/-- The pointwise functions of a vector, read at an index. -/
theorem exp_at {s : Shape} (v : FVec Ideal s .f32) (j : s.Idx) : exp v j = Ideal.exp (v j) := rfl
theorem tanh_at {s : Shape} (v : FVec Ideal s .f32) (j : s.Idx) : tanh v j = Ideal.tanh (v j) := rfl
theorem sin_at {s : Shape} (v : FVec Ideal s .f32) (j : s.Idx) : sin v j = Ideal.sin (v j) := rfl

theorem stab_apply (θb : Vec Ideal S128x128x4 .f32) (q i : Fin 128) :
    stabBlock θb (ix2 q i) = MixLayer.peak (fun a => θb (ix3 q i a)) := by
  unfold stabBlock MixLayer.peak
  refine (maximumf_apply _ _ _).trans ?_
  refine congrArg₂ max (rfl : _ = MixLayer.floor) ?_
  refine (Ideal.multiReduction_maximumf_single θb _ _ _ _ (ix2 q i)).trans ?_
  rw [show (θb ∘ (reduces_S128x128x4_S128x128).lift (ix2 q i)) = fun a => θb (ix3 q i a) from
    funext fun k => congrArg θb (lift4 _ q i k)]
  rfl

theorem exp_apply (θb : Vec Ideal S128x128x4 .f32) (q i : Fin 128) (a : Fin 4) :
    expBlock θb (ix3 q i a) = Ideal.exp (θb (ix3 q i a) - MixLayer.peak (fun a => θb (ix3 q i a))) := by
  unfold expBlock
  refine (exp_at _ _).trans (congrArg Ideal.exp ?_)
  refine (subf_apply _ _ _).trans ?_
  rw [spreadLast_apply, addLast_apply, stab_apply]

theorem soft_apply (θb : Vec Ideal S128x128x4 .f32) (q i : Fin 128) (a : Fin 4) :
    softBlock θb (ix3 q i a) = MixLayer.weight (fun a => θb (ix3 q i a)) a := by
  unfold softBlock MixLayer.weight
  refine (divf_apply _ _ _).trans ?_
  rw [spreadLast_apply, addLast_apply, exp_apply]
  refine congrArg (Ideal.div _) ?_
  refine (Ideal.multiReduction_add_single (expBlock θb) _ _ _ _ (ix2 q i)).trans ?_
  exact Finset.sum_congr rfl fun k _ => (congrArg (expBlock θb) (lift4 _ q i k)).trans (exp_apply θb q i k)

theorem atom_apply (θb : Vec Ideal S128x128x4 .f32) (o : Nat) (ho : o < 4) (h : S128x128x4.Slices ![0, 0, o] S128x128x1) (q i : Fin 128) :
    atomBlock θb o h (ix2 q i) = MixLayer.weight (fun a => θb (ix3 q i a)) ⟨o, ho⟩ := by
  unfold atomBlock
  rw [dropLast_apply, pick_apply o ho, soft_apply]

theorem mix_apply (θb : Vec Ideal S128x128x4 .f32) (wb : Vec Ideal S128x128 .f32) (q i : Fin 128) :
    mixBlock θb wb (ix2 q i) = MixLayer.mix (fun a => θb (ix3 q i a)) (wb (ix2 q i)) := by
  unfold mixBlock MixLayer.mix
  rw [addf_apply, addf_apply, mulf_apply, mulf_apply, mulf_apply, tanh_at, sin_at,
    atom_apply θb 1 (by omega), atom_apply θb 2 (by omega), atom_apply θb 3 (by omega)]
  rfl

theorem prod_apply (θb : Vec Ideal S128x128x4 .f32) (wb xb : Vec Ideal S128x128 .f32) (p q i : Fin 128) :
    prodBlock θb wb xb (ix3 p q i) = xb (ix2 p i) * MixLayer.mix (fun a => θb (ix3 q i a)) (wb (ix2 q i)) := by
  unfold prodBlock
  rw [mulf_apply, spreadMid_apply, addMid_apply, spreadLead_apply, shapeCast_ab_1ab_apply, mix_apply]

/-- The update at entry (p, q): the total so far plus this block's 128 summands. -/
theorem update_apply (θb : Vec Ideal S128x128x4 .f32) (wb xb acc : Vec Ideal S128x128 .f32) (p q : Fin 128) :
    k0_pay4 (F := Ideal) θb wb xb acc (ix2 p q)
      = acc (ix2 p q) + ∑ i : Fin 128, MixLayer.term (xb (ix2 p i)) (fun a => θb (ix3 q i a)) (wb (ix2 q i)) := by
  rw [update_eq]
  refine (addf_apply _ _ _).trans (congrArg (acc (ix2 p q) + ·) ?_)
  refine (Ideal.multiReduction_add_single (tanh (prodBlock θb wb xb)) _ _ _ _ (ix2 p q)).trans ?_
  refine Finset.sum_congr rfl fun i _ => ?_
  refine (congrArg (tanh (prodBlock θb wb xb)) (lift128 _ p q i)).trans ?_
  exact (tanh_at _ _).trans (congrArg Ideal.tanh (prod_apply θb wb xb p q i))

/-- The total the body stores back is the update itself (it goes through a cast to its own shape). -/
theorem total_apply (θb : Vec Ideal S128x128x4 .f32) (wb xb acc : Vec Ideal S128x128 .f32) (p q : Fin 128) :
    k0_pay1 (F := Ideal) (k0_pay4 θb wb xb acc) (ix2 p q)
      = acc (ix2 p q) + ∑ i : Fin 128, MixLayer.term (xb (ix2 p i)) (fun a => θb (ix3 q i a)) (wb (ix2 q i)) := by
  unfold k0_pay1
  rw [shapeCast_self]
  exact update_apply θb wb xb acc p q

/-- The block the body clears the total with is zero everywhere. -/
theorem cleared_apply (p q : Fin 128) : k0_pay3 (F := Ideal) (ix2 p q) = 0 := by
  unfold k0_pay3
  rw [shapeCast_self]
  exact Ideal.ofBits_zero_f32

/-- The output block: the total plus the bias row, laid along every row. -/
theorem biased_apply (tot : Vec Ideal S128x128 .f32) (bb : Vec Ideal S1x128 .f32) (p q : Fin 128) :
    k0_pay2 (F := Ideal) tot bb (ix2 p q) = tot (ix2 p q) + bb (ix2 (0 : Fin 1) q) := by
  unfold k0_pay2
  rw [addf_apply, shapeCast_self, broadcastTo_1b_ab_apply]

end Cert.KernelIdeal.BlockValue

end
-- ==== Proof.ArrayValue.lean ====
/-
  The kernel's output array as one function of its arguments.

  The grid is 1 × 4 × 8: point t works on column tile t / 8 of the output, at step t % 8 of the sum over the 1024
  input columns. Its input block holds columns 128 (t % 8) … of x, its weight and logit blocks rows 128 (t / 8) … and the
  same columns of W and θ, its bias block entries 128 (t / 8) … of b. The scratch after point t therefore holds, at
  (p, q), the running total of runs 0 … t % 8 of entry (p, 128 (t / 8) + q)'s sum — by induction on the point — and at the
  last step (t % 8 = 7) the total of all eight runs, which is the whole sum over 1024 (a regrouping of a finite sum of
  extended reals), goes to the output block with the bias added. Each output entry lies in exactly the block written
  at the last step of its column tile, so the output array ends at the layer's value.
-/
import proofs.«117041_j44813688767076_1_alg».proof.Proof.Gen.KernelIdeal.Value
import proofs.«117041_j44813688767076_1_alg».proof.Proof.BodyPieces
import proofs.«117041_j44813688767076_1_alg».proof.Proof.BlockValue
import proofs.«117041_j44813688767076_1_alg».proof.Proof.MixSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The arrays and the blocks -/

/-- The four argument arrays as launched. -/
abbrev argX (c : Dev nD) : S128x1024.Idx → EReal := m ((c : Thread nD τ).loc main_arg0)
abbrev argW (c : Dev nD) : S512x1024.Idx → EReal := m ((c : Thread nD τ).loc main_arg1)
abbrev argB (c : Dev nD) : S512.Idx → EReal := m ((c : Thread nD τ).loc main_arg2)
abbrev argΘ (c : Dev nD) : S512x1024x4.Idx → EReal := m ((c : Thread nD τ).loc main_arg3)

/-- The layer's value on them: what the output array is to end holding. -/
abbrev outArr (c : Dev nD) : S128x512.Idx → EReal := MixLayer.layer (argX m c) (argW m c) (argB m c) (argΘ m c)

/-- The blocks grid point `t` works on: inputs, weights, logits, and the bias row. -/
abbrev xblk (c : Dev nD) (t : Fin cfg0.N) : Vec Ideal S128x128 .f32 := iblk m c 0 t
abbrev wblk (c : Dev nD) (t : Fin cfg0.N) : Vec Ideal S128x128 .f32 := iblk m c 1 t
abbrev θblk (c : Dev nD) (t : Fin cfg0.N) : Vec Ideal S128x128x4 .f32 := iblk m c 2 t
abbrev bblk (c : Dev nD) (t : Fin cfg0.N) : Vec Ideal S1x128 .f32 := iblk m c 3 t

/-- Point `t` of the 1 × 4 × 8 grid is column tile `t / 8` of the output at reduction step `t % 8`; each window's block
    index follows. Decided over the 32 points. -/
theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

/-- The input block at point `t`: rows as they are, columns `128 (t % 8) + i`. -/
theorem xblk_apply (c : Dev nD) (t : Fin cfg0.N) (p i : Fin 128) (n : Fin 1024) (hn : n.val = 128 * (t.val % 8) + i.val) :
    xblk m c t (ix2 p i) = argX m c (ix2 p n) := by
  obtain ⟨e0, e1, -⟩ := idx_facts t
  unfold xblk iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 128 + 1 * p.val = p.val; rw [e0]; omega
  | ⟨1, _⟩ => show win0_0.index t (1 : Fin 2) * 128 + 1 * i.val = n.val; rw [e1, hn]; omega

/-- The weight block: rows `128 (t / 8) + q`, columns `128 (t % 8) + i`. -/
theorem wblk_apply (c : Dev nD) (t : Fin cfg0.N) (q i : Fin 128) (r : Fin 512) (n : Fin 1024)
    (hr : r.val = 128 * (t.val / 8) + q.val) (hn : n.val = 128 * (t.val % 8) + i.val) :
    wblk m c t (ix2 q i) = argW m c (ix2 r n) := by
  obtain ⟨-, -, e0, e1, -⟩ := idx_facts t
  unfold wblk iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 128 + 1 * q.val = r.val; rw [e0, hr]; omega
  | ⟨1, _⟩ => show win0_1.index t (1 : Fin 2) * 128 + 1 * i.val = n.val; rw [e1, hn]; omega

/-- The logit block: the same rows and columns, all four logits. -/
theorem θblk_apply (c : Dev nD) (t : Fin cfg0.N) (q i : Fin 128) (a : Fin 4) (r : Fin 512) (n : Fin 1024)
    (hr : r.val = 128 * (t.val / 8) + q.val) (hn : n.val = 128 * (t.val % 8) + i.val) :
    θblk m c t (ix3 q i a) = argΘ m c (ix3 r n a) := by
  obtain ⟨-, -, -, -, e0, e1, e2, -⟩ := idx_facts t
  unfold θblk iblk
  rw [View.read_apply]
  show V m c main_arg3 _ = _
  rw [V_main_arg3]
  refine congrArg (m ((c : Thread nD τ).loc main_arg3)) (funext fun ax => Fin.ext ?_)
  match ax with
  | ⟨0, _⟩ => show win0_2.index t (0 : Fin 3) * 128 + 1 * q.val = r.val; rw [e0, hr]; omega
  | ⟨1, _⟩ => show win0_2.index t (1 : Fin 3) * 128 + 1 * i.val = n.val; rw [e1, hn]; omega
  | ⟨2, _⟩ => show win0_2.index t (2 : Fin 3) * 4 + 1 * a.val = a.val; rw [e2]; omega

/-- The bias, as the region finds it: the host has laid the vector out as one row. -/
theorem bias_row (c : Dev nD) :
    (V m c main_v0 : S1x512.Idx → EReal) = shapeCast S1x512 (argB m c) shapeCasts_S512_S1x512 := by
  dsimp only [Gen.V, Gen.hostOps0]; after_results; rfl

/-- The bias block: entries `128 (t / 8) + q` of the bias vector. -/
theorem bblk_apply (c : Dev nD) (t : Fin cfg0.N) (q : Fin 128) (r : Fin 512) (hr : r.val = 128 * (t.val / 8) + q.val) :
    bblk m c t (ix2 (0 : Fin 1) q) = argB m c (ix1 r) := by
  obtain ⟨-, -, -, -, -, -, -, e0, e1, -⟩ := idx_facts t
  unfold bblk iblk
  rw [View.read_apply]
  show V m c main_v0 _ = _
  rw [bias_row]
  refine (congrArg (shapeCast S1x512 (argB m c) shapeCasts_S512_S1x512) (?_ : _ = ix2 (0 : Fin 1) r)).trans
    (shapeCast_a_1a_apply (argB m c) shapeCasts_S512_S1x512 0 r)
  funext ax
  apply Fin.ext
  match ax with
  | ⟨0, _⟩ => show win0_3.index t (0 : Fin 2) * 1 + 1 * 0 = 0; rw [e0]
  | ⟨1, _⟩ => show win0_3.index t (1 : Fin 2) * 128 + 1 * q.val = r.val; rw [e1, hr]; omega

/-! ## One point's 128 summands are a run of the layer's sum -/

/-- Run `k` of entry (p, r)'s sum: summands `128 k` to `128 k + 127`. -/
abbrev runOf (c : Dev nD) (p : Fin 128) (r : Fin 512) (k : ℕ) : EReal :=
  ∑ i ∈ Finset.range 128, MixLayer.summand (argX m c) (argW m c) (argΘ m c) p r (128 * k + i)

theorem point_sum (c : Dev nD) (t : Fin cfg0.N) (p q : Fin 128) (r : Fin 512) (hr : r.val = 128 * (t.val / 8) + q.val) :
    ∑ i : Fin 128, MixLayer.term (xblk m c t (ix2 p i)) (fun a => θblk m c t (ix3 q i a)) (wblk m c t (ix2 q i))
      = runOf m c p r (t.val % 8) := by
  have hN : t.val < 32 := lt_of_lt_of_eq t.isLt N_0
  unfold runOf
  rw [Finset.sum_range]
  refine Finset.sum_congr rfl fun i _ => ?_
  have hlt : 128 * (t.val % 8) + i.val < 1024 := by have := i.isLt; omega
  unfold MixLayer.summand
  rw [dif_pos hlt, xblk_apply m c t p i ⟨_, hlt⟩ rfl, wblk_apply m c t q i r ⟨_, hlt⟩ hr rfl]
  refine congrArg (fun θ => MixLayer.term _ θ _) (funext fun a => ?_)
  exact θblk_apply m c t q i a r ⟨_, hlt⟩ hr rfl

/-! ## The scratch, point by point -/

/-- At the first point of a run the scratch ends at that point's 128 summands. -/
theorem scratch_at_first (c : Dev nD) (t : Fin cfg0.N) (h0 : t.val % 8 = 0) (h1 : ¬t.val % 8 = 7) (p q : Fin 128) :
    (outsAt0 m c t.val t.isLt).2 (ix2 p q)
      = ∑ i : Fin 128, MixLayer.term (xblk m c t (ix2 p i)) (fun a => θblk m c t (ix3 q i a)) (wblk m c t (ix2 q i)) := by
  rw [outsAt0_A m c t h0 h1]
  dsimp only
  refine (congrFun (BodyPieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xblk m c t) (wblk m c t) (θblk m c t) (bblk m c t)) (ix2 p q)).trans ?_
  refine (BlockValue.total_apply (θblk m c t) (wblk m c t) (xblk m c t) (k0_pay3 (F := Ideal)) p q).trans ?_
  rw [BlockValue.cleared_apply, zero_add]

/-- At every other point it ends at what the point before left plus that point's summands. -/
theorem scratch_at_next (c : Dev nD) (t : Fin cfg0.N) (h0 : ¬t.val % 8 = 0) (p q : Fin 128) :
    (outsAt0 m c t.val t.isLt).2 (ix2 p q)
      = (outsAt0 m c (t.val - 1) (Nat.lt_of_le_of_lt (Nat.sub_le _ _) t.isLt)).2 (ix2 p q)
        + ∑ i : Fin 128, MixLayer.term (xblk m c t (ix2 p i)) (fun a => θblk m c t (ix3 q i a)) (wblk m c t (ix2 q i)) := by
  by_cases h1 : t.val % 8 = 7
  · rw [outsAt0_C m c t h0 h1]
    dsimp only
    refine (congrFun (BodyPieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (θblk m c t) (bblk m c t) (outsAt0 m c (t.val - 1) (Nat.lt_of_le_of_lt (Nat.sub_le _ _) t.isLt)).2) (ix2 p q)).trans ?_
    exact BlockValue.total_apply (θblk m c t) (wblk m c t) (xblk m c t) _ p q
  · rw [outsAt0_B m c t h0 h1]
    dsimp only
    refine (congrFun (BodyPieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xblk m c t) (wblk m c t) (θblk m c t) (bblk m c t) (outsAt0 m c (t.val - 1) (Nat.lt_of_le_of_lt (Nat.sub_le _ _) t.isLt)).2) (ix2 p q)).trans ?_
    exact BlockValue.total_apply (θblk m c t) (wblk m c t) (xblk m c t) _ p q

/-- So after point `n` the scratch holds, at entry (p, q), the running total of runs 0 to `n % 8` of entry
    (p, 128 (n / 8) + q)'s sum: by induction on the point. -/
theorem scratch_apply (c : Dev nD) (p q : Fin 128) (r : Fin 512) :
    ∀ (n : ℕ) (h : n < cfg0.N), r.val = 128 * (n / 8) + q.val →
      (outsAt0 m c n h).2 (ix2 p q) = MixLayer.running (runOf m c p r) (n % 8) := by
  intro n
  induction n with
  | zero =>
    intro h hr
    refine (scratch_at_first m c ⟨0, h⟩ (Nat.zero_mod 8) (by show ¬(0 : ℕ) % 8 = 7; decide) p q).trans ?_
    rw [point_sum m c ⟨0, h⟩ p q r hr]
    rfl
  | succ n ih =>
    intro h hr
    have hN : n + 1 < 32 := lt_of_lt_of_eq h N_0
    by_cases h0 : (n + 1) % 8 = 0
    · have h7 : ¬(n + 1) % 8 = 7 := by omega
      refine (scratch_at_first m c ⟨n + 1, h⟩ h0 h7 p q).trans ?_
      rw [point_sum m c ⟨n + 1, h⟩ p q r hr]
      show runOf m c p r ((n + 1) % 8) = MixLayer.running (runOf m c p r) ((n + 1) % 8)
      rw [h0]
      rfl
    · have hk : (n + 1) % 8 = n % 8 + 1 := by omega
      have hr' : r.val = 128 * (n / 8) + q.val := by omega
      refine (scratch_at_next m c ⟨n + 1, h⟩ h0 p q).trans ?_
      rw [point_sum m c ⟨n + 1, h⟩ p q r hr]
      show (outsAt0 m c n _).2 (ix2 p q) + runOf m c p r ((n + 1) % 8) = MixLayer.running (runOf m c p r) ((n + 1) % 8)
      rw [ih (Nat.lt_of_succ_lt h) hr', hk]
      rfl

/-! ## The output array -/

/-- At the last point of a run the output block is the scratch plus the bias block. -/
theorem out_at_last (c : Dev nD) (t : Fin cfg0.N) (h0 : ¬t.val % 8 = 0) (h1 : t.val % 8 = 7) (p q : Fin 128) :
    (outsAt0 m c t.val t.isLt).1 (ix2 p q) = (outsAt0 m c t.val t.isLt).2 (ix2 p q) + bblk m c t (ix2 (0 : Fin 1) q) := by
  rw [outsAt0_C m c t h0 h1]
  dsimp only
  refine (congrFun (BodyPieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (θblk m c t) (bblk m c t) (outsAt0 m c (t.val - 1) (Nat.lt_of_le_of_lt (Nat.sub_le _ _) t.isLt)).2) (ix2 p q)).trans ?_
  refine (BlockValue.biased_apply _ (bblk m c t) p q).trans ?_
  refine congrArg (· + bblk m c t (ix2 (0 : Fin 1) q)) ?_
  exact (congrFun (BodyPieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (θblk m c t) (bblk m c t) (outsAt0 m c (t.val - 1) (Nat.lt_of_le_of_lt (Nat.sub_le _ _) t.isLt)).2) (ix2 p q)).symm

/-- Entry (p, q) of the block written at the last point of column tile `t / 8`: all 1024 summands of entry
    (p, r), r = 128 (t / 8) + q, plus the bias of column r. -/
theorem out_entry (c : Dev nD) (t : Fin cfg0.N) (h1 : t.val % 8 = 7) (p q : Fin 128) (r : Fin 512)
    (hr : r.val = 128 * (t.val / 8) + q.val) :
    (outsAt0 m c t.val t.isLt).1 (ix2 p q)
      = (∑ n ∈ Finset.range 1024, MixLayer.summand (argX m c) (argW m c) (argΘ m c) p r n) + argB m c (ix1 r) := by
  have h0 : ¬t.val % 8 = 0 := by omega
  rw [out_at_last m c t h0 h1, scratch_apply m c p q r t.val t.isLt hr, bblk_apply m c t q r hr, h1,
    MixLayer.running_runs]

/-- What a flushing point writes back is its block of the layer's value. -/
theorem flushed_eq (c : Dev nD) (t : Fin cfg0.N) (hf : (cfg0.win 4).flush t = true) :
    (dats m 0 c).flushed 4 t = ((cfg0.win 4).blk t).view.read (Elt Ideal) (outArr m c) := by
  have h1 : t.val % 8 = 7 := (flush0_4 t).mp hf
  obtain ⟨-, -, -, -, -, -, -, -, -, e0, e1⟩ := idx_facts t
  show (cfg0.win 4).cut (grid0.coords t) ((dats m 0 c).after 4 t) = _
  rw [after0_4]
  funext j
  show (outsAt0 m c t.val t.isLt).1 j = outArr m c (((cfg0.win 4).blk t).view.emb j)
  refine (congrArg (outsAt0 m c t.val t.isLt).1 (eq_ix2 j)).trans ?_
  have hg0 : ((((cfg0.win 4).blk t).view.emb j) 0).val = (j 0).val := by
    show win0_4.index t (0 : Fin 2) * 128 + 1 * (j 0).val = (j 0).val; rw [e0]; omega
  have hg1 : ((((cfg0.win 4).blk t).view.emb j) 1).val = 128 * (t.val / 8) + (j 1).val := by
    show win0_4.index t (1 : Fin 2) * 128 + 1 * (j 1).val = 128 * (t.val / 8) + (j 1).val; rw [e1]; omega
  refine (out_entry m c t h1 (j 0) (j 1) ((((cfg0.win 4).blk t).view.emb j) 1) hg1).trans ?_
  exact congrArg (fun p' : Fin 128 => (∑ n ∈ Finset.range 1024, MixLayer.summand (argX m c) (argW m c) (argΘ m c) p'
    ((((cfg0.win 4).blk t).view.emb j) 1) n) + argB m c (ix1 ((((cfg0.win 4).blk t).view.emb j) 1))) (Fin.ext hg0.symm)

/-- An entry of the output array is in point `t`'s block iff each coordinate is in the block's range on its axis. -/
theorem mem_blk (t : Fin cfg0.N) (i : S128x512.Idx) :
    i ∈ ((cfg0.win 4).blk t).view.set ↔ ∀ a : Fin 2, win0_4.index t a * S128x128.size a ≤ (i a).val
      ∧ (i a).val < win0_4.index t a * S128x128.size a + S128x128.size a := by
  show i ∈ ((View.whole main_v1).slice (win0_4.rect t)).set ↔ _
  rw [View.set_slice_whole, Rect.mem_set_unit]
  exact Iff.rfl

/-- Every entry of the output array lies in the block written at the last point of its column tile, so the array ends
    holding the layer's value. -/
theorem final_out (c : Dev nD) : (dats m 0 c).arrAt 4 cfg0.N = outArr m c :=
  (dats m 0 c).arrAt_eq_of_cover 4 (outArr m c) (flushed_eq m c) fun (i : S128x512.Idx) => by
    have hi0 : (i 0).val < 128 := (i 0).isLt
    have hi1 : (i 1).val < 512 := (i 1).isLt
    have hlt : 8 * ((i 1).val / 128) + 7 < cfg0.N := by rw [show cfg0.N = 32 from N_0]; omega
    obtain ⟨-, -, -, -, -, -, -, -, -, e0, e1⟩ := idx_facts ⟨8 * ((i 1).val / 128) + 7, hlt⟩
    have hmod : (8 * ((i 1).val / 128) + 7) % 8 = 7 := by omega
    have hdiv : (8 * ((i 1).val / 128) + 7) / 8 = (i 1).val / 128 := by omega
    refine ⟨⟨8 * ((i 1).val / 128) + 7, hlt⟩, (flush0_4 _).mpr hmod, ?_⟩
    rw [mem_blk]
    intro a
    match a with
    | ⟨0, _⟩ =>
      show win0_4.index ⟨8 * ((i 1).val / 128) + 7, hlt⟩ (0 : Fin 2) * 128 ≤ (i 0).val
        ∧ (i 0).val < win0_4.index ⟨8 * ((i 1).val / 128) + 7, hlt⟩ (0 : Fin 2) * 128 + 128
      rw [e0]; omega
    | ⟨1, _⟩ =>
      show win0_4.index ⟨8 * ((i 1).val / 128) + 7, hlt⟩ (1 : Fin 2) * 128 ≤ (i 1).val
        ∧ (i 1).val < win0_4.index ⟨8 * ((i 1).val / 128) + 7, hlt⟩ (1 : Fin 2) * 128 + 128
      rw [e1]
      show (8 * ((i 1).val / 128) + 7) / 8 * 128 ≤ (i 1).val ∧ (i 1).val < (8 * ((i 1).val / 128) + 7) / 8 * 128 + 128
      rw [hdiv]; omega

/-- The kernel's run: the output array ends at the layer's value of the argument arrays, which end as launched. -/
theorem run : θ_run defs (onTc (τ := τ) (main (F := Ideal))) ⟨m, fun _ => 0, ρ⟩ fun r => ∀ c : Dev nD,
      r.2.mem ((c : Thread nD τ).loc main_v1) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2⟩) (Value.run_blocks m ρ)

end Cert.KernelIdeal.ArrayValue

end
-- ==== Proof.RefValue.lean ====
/-
  The reference's result array as the same function of its arguments.

  Read one operation at a time: the logits are divided by the constant one, which changes nothing; the stabiliser is
  the reduce-max of a position's four logits from minus infinity; the softmax weights are the exponentials of the
  stabilised logits over their sum (the host adds the sum to an initial zero); slices 1, 2 and 3 of the weights
  multiply W, tanh W and sin W; the products with x are passed through tanh and summed over all 1024 columns from
  an initial zero; the bias is added. Entry by entry this is the layer of the specification.
-/
import proofs.«117041_j44813688767076_1_alg».proof.Proof.Gen.ReferenceIdeal.Read
import proofs.«117041_j44813688767076_1_alg».proof.Proof.MixSpec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

variable (X : S128x1024.Idx → EReal) (W : S512x1024.Idx → EReal) (B : S512.Idx → EReal) (Θ : S512x1024x4.Idx → EReal)

/-- The logits divided by the constant one are the logits. -/
theorem logit_apply (r : Fin 512) (n : Fin 1024) (a : Fin 4) :
    val_main_v1 (F := Ideal) Θ (ix3 r n a) = Θ (ix3 r n a) := by
  rw [val_main_v1_apply, val_main_v0_apply, val_main_cst_apply]
  show Ideal.div (Θ (ix3 r n a)) (Ideal.ofBits .f32 0x3F800000#32) = _
  rw [MixLayer.ofBits_one, MixLayer.div_one]

theorem lift_last (h : S512x1024x4.Reduces [2] S512x1024) (r : Fin 512) (n : Fin 1024) (k : Fin 4) :
    h.lift (ix2 r n) k = ix3 r n k :=
  funext fun ax => match ax with
    | ⟨0, _⟩ => rfl
    | ⟨1, _⟩ => rfl
    | ⟨2, _⟩ => rfl

/-- The stabiliser: the reduce-max over the four logits from minus infinity, then the maximum with minus infinity. -/
theorem peak_apply (r : Fin 512) (n : Fin 1024) :
    val_main_v4 (F := Ideal) Θ (ix2 r n) = MixLayer.peak (fun a => Θ (ix3 r n a)) := by
  have hR : S512x1024x4.Reduces [2] S512x1024 := by decide
  rw [val_main_v4_apply, val_main_v3_apply, val_main_cst_1_apply]
  unfold MixLayer.peak val_main_v2
  refine congrArg₂ max rfl ?_
  refine (Host.reduce_eq_fold_single FloatOps.maximumf _ _ _ hR _ (ix2 r n)).trans ?_
  rw [show (val_main_v1 (F := Ideal) Θ ∘ hR.lift (ix2 r n)) = fun a => Θ (ix3 r n a) from
    funext fun k => (congrArg (val_main_v1 (F := Ideal) Θ) (lift_last hR r n k)).trans (logit_apply Θ r n k)]
  rfl

theorem exp_apply (r : Fin 512) (n : Fin 1024) (a : Fin 4) :
    val_main_v8 (F := Ideal) Θ (ix3 r n a) = Ideal.exp (Θ (ix3 r n a) - MixLayer.peak (fun a => Θ (ix3 r n a))) := by
  rw [val_main_v8_apply, val_main_v7_apply, val_main_v6_apply, val_main_v5_apply, logit_apply,
    show idx_main_v5 (idx_main_v6 (ix3 r n a)) = ix2 r n from
      funext fun ax => match ax with | ⟨0, _⟩ => rfl | ⟨1, _⟩ => rfl,
    peak_apply]
  rfl

theorem weight_apply (r : Fin 512) (n : Fin 1024) (a : Fin 4) :
    val_main_v12 (F := Ideal) Θ (ix3 r n a) = MixLayer.weight (fun a => Θ (ix3 r n a)) a := by
  rw [val_main_v12_apply, val_main_v11_apply, val_main_v10_apply, exp_apply,
    show idx_main_v10 (idx_main_v11 (ix3 r n a)) = ix2 r n from
      funext fun ax => match ax with | ⟨0, _⟩ => rfl | ⟨1, _⟩ => rfl,
    val_main_v9_apply]
  unfold MixLayer.weight
  show Ideal.div _ (Ideal.ofBits .f32 0x00000000#32 + ∑ k : Fin 4, val_main_v8 (F := Ideal) Θ (idx_main_v9 (ix2 r n) k)) = _
  rw [Ideal.ofBits_zero_f32, zero_add]
  refine congrArg (Ideal.div _) (Finset.sum_congr rfl fun k _ => ?_)
  rw [show idx_main_v9 (ix2 r n) k = ix3 r n k from
      funext fun ax => match ax with | ⟨0, _⟩ => rfl | ⟨1, _⟩ => rfl | ⟨2, _⟩ => rfl,
    exp_apply]

/-- The three slices of the softmax weights the mix uses. -/
theorem atom1_apply (r : Fin 512) (n : Fin 1024) :
    val_main_v14 (F := Ideal) Θ (ix2 r n) = MixLayer.weight (fun a => Θ (ix3 r n a)) 1 := by
  rw [val_main_v14_apply, val_main_v13_apply,
    show idx_main_v13 (idx_main_v14 (ix2 r n)) = ix3 r n (1 : Fin 4) from
      funext fun ax => Fin.ext (by
        have hr := r.isLt
        have hn := n.isLt
        match ax with
        | ⟨0, _⟩ => show (r.val * 1024 + n.val) / 1024 = r.val; omega
        | ⟨1, _⟩ => show (r.val * 1024 + n.val) / 1 % 1024 = n.val; omega
        | ⟨2, _⟩ => rfl)]
  exact weight_apply Θ r n 1

theorem atom2_apply (r : Fin 512) (n : Fin 1024) :
    val_main_v17 (F := Ideal) Θ (ix2 r n) = MixLayer.weight (fun a => Θ (ix3 r n a)) 2 := by
  rw [val_main_v17_apply, val_main_v16_apply,
    show idx_main_v16 (idx_main_v17 (ix2 r n)) = ix3 r n (2 : Fin 4) from
      funext fun ax => Fin.ext (by
        have hr := r.isLt
        have hn := n.isLt
        match ax with
        | ⟨0, _⟩ => show (r.val * 1024 + n.val) / 1024 = r.val; omega
        | ⟨1, _⟩ => show (r.val * 1024 + n.val) / 1 % 1024 = n.val; omega
        | ⟨2, _⟩ => rfl)]
  exact weight_apply Θ r n 2

theorem atom3_apply (r : Fin 512) (n : Fin 1024) :
    val_main_v22 (F := Ideal) Θ (ix2 r n) = MixLayer.weight (fun a => Θ (ix3 r n a)) 3 := by
  rw [val_main_v22_apply, val_main_v21_apply,
    show idx_main_v21 (idx_main_v22 (ix2 r n)) = ix3 r n (3 : Fin 4) from
      funext fun ax => Fin.ext (by
        have hr := r.isLt
        have hn := n.isLt
        match ax with
        | ⟨0, _⟩ => show (r.val * 1024 + n.val) / 1024 = r.val; omega
        | ⟨1, _⟩ => show (r.val * 1024 + n.val) / 1 % 1024 = n.val; omega
        | ⟨2, _⟩ => rfl)]
  exact weight_apply Θ r n 3

/-- The effective weight. -/
theorem mix_apply (r : Fin 512) (n : Fin 1024) :
    val_main_v25 (F := Ideal) W Θ (ix2 r n) = MixLayer.mix (fun a => Θ (ix3 r n a)) (W (ix2 r n)) := by
  rw [val_main_v25_apply, val_main_v20_apply, val_main_v15_apply, val_main_v19_apply, val_main_v24_apply,
    val_main_v18_apply, val_main_v23_apply, atom1_apply, atom2_apply, atom3_apply]
  rfl

/-- One summand. -/
theorem summand_apply (p : Fin 128) (r : Fin 512) (n : Fin 1024) :
    val_main_v31 (F := Ideal) X W Θ (ix3 p r n)
      = MixLayer.term (X (ix2 p n)) (fun a => Θ (ix3 r n a)) (W (ix2 r n)) := by
  rw [val_main_v31_apply, val_main_v30_apply, val_main_v28_apply, val_main_v26_apply, val_main_v29_apply, val_main_v27_apply,
    show idx_main_v26 (idx_main_v28 (ix3 p r n)) = ix2 p n from
      funext fun ax => match ax with | ⟨0, _⟩ => rfl | ⟨1, _⟩ => rfl,
    show idx_main_v27 (idx_main_v29 (ix3 p r n)) = ix2 r n from
      funext fun ax => match ax with | ⟨0, _⟩ => rfl | ⟨1, _⟩ => rfl,
    mix_apply]
  rfl

/-- The reference's result at entry (p, r) is the layer's. -/
theorem result_apply (p : Fin 128) (r : Fin 512) :
    val_main_v35 (F := Ideal) X W B Θ (ix2 p r) = MixLayer.layer X W B Θ (ix2 p r) := by
  rw [val_main_v35_apply, val_main_v32_apply, val_main_v34_apply, val_main_v33_apply]
  unfold MixLayer.layer
  show (Ideal.ofBits .f32 0x00000000#32 + ∑ k : Fin 1024, val_main_v31 (F := Ideal) X W Θ (idx_main_v32 (ix2 p r) k))
      + B (idx_main_v33 (idx_main_v34 (ix2 p r)))
    = (∑ n ∈ Finset.range 1024, MixLayer.summand X W Θ p r n) + B (ix1 r)
  rw [Ideal.ofBits_zero_f32, zero_add, Finset.sum_range]
  refine congrArg₂ (· + ·) (Finset.sum_congr rfl fun k _ => ?_) (congrArg B ?_)
  · rw [show idx_main_v32 (ix2 p r) k = ix3 p r k from
        funext fun ax => match ax with | ⟨0, _⟩ => rfl | ⟨1, _⟩ => rfl | ⟨2, _⟩ => rfl,
      summand_apply]
    unfold MixLayer.summand
    rw [dif_pos k.isLt]
  · exact funext fun ax => match ax with | ⟨0, _⟩ => rfl

/-- So the reference's result array is the layer's value of its four arguments. -/
theorem result_eq : val_main_v35 (F := Ideal) X W B Θ = MixLayer.layer X W B Θ :=
  funext fun g => (congrArg (val_main_v35 (F := Ideal) X W B Θ) (eq_ix2 g)).trans
    ((result_apply X W B Θ (g 0) (g 1)).trans (congrArg (MixLayer.layer X W B Θ) (eq_ix2 g).symm))

end Cert.ReferenceIdeal.RefValue

end
-- ==== Proof.lean ====
/-
  The certificate of a mixed-weight tanh layer:  y(p, q) = (∑ i < 1024, tanh (x(p, i) · w_eff(q, i))) + b(q),  where
  w_eff(q, i) = s₁ · W(q, i) + s₂ · tanh W(q, i) + s₃ · sin W(q, i)  and  s = softmax (θ(q, i, ·))  over four logits.

  The kernel computes y tile by tile: for each of four column tiles of the output it walks the 1024 input columns
  in eight runs of 128, keeping the running total of a tile's sums in a scratch block that it clears at the first run
  and writes out, with the bias added, after the last. The reference computes the same formula on whole arrays and
  first divides the logits by one.

  Over the extended reals both are one function of the four arrays (`MixLayer.layer`): the kernel's side is
  Proof/ArrayValue.lean (over Proof/BodyPieces.lean and Proof/BlockValue.lean), the reference's Proof/RefValue.lean, and
  the specification with the one law that joins them — a finite sum may be taken in runs — is Proof/MixSpec.lean. The law
  is a regrouping of a sum in a commutative monoid, and division by one is the identity at the infinities too, so the
  precondition that the inputs are finite is never opened. The three frames are the generated ones (the reference's is
  its generated run with the result dropped), and the idealization rewrote nothing, so `preserves` is `True`.
-/
import proofs.«117041_j44813688767076_1_alg».proof.Defs
import proofs.«117041_j44813688767076_1_alg».proof.Proof.Gen.Kernel
import proofs.«117041_j44813688767076_1_alg».proof.Proof.Gen.Kernel.Skeleton
import proofs.«117041_j44813688767076_1_alg».proof.Proof.Gen.Kernel.Launch
import proofs.«117041_j44813688767076_1_alg».proof.Proof.Gen.Kernel.Points
import proofs.«117041_j44813688767076_1_alg».proof.Proof.Gen.Kernel.Frame
import proofs.«117041_j44813688767076_1_alg».proof.Proof.Gen.KernelIdeal
import proofs.«117041_j44813688767076_1_alg».proof.Proof.Gen.KernelIdeal.Skeleton
import proofs.«117041_j44813688767076_1_alg».proof.Proof.Gen.KernelIdeal.Launch
import proofs.«117041_j44813688767076_1_alg».proof.Proof.Gen.KernelIdeal.Points
import proofs.«117041_j44813688767076_1_alg».proof.Proof.Gen.KernelIdeal.Frame
import proofs.«117041_j44813688767076_1_alg».proof.Proof.Gen.ReferenceIdeal
import proofs.«117041_j44813688767076_1_alg».proof.Proof.Gen.Pre_finite_inputs
import proofs.«117041_j44813688767076_1_alg».proof.Proof.Gen.KernelIdeal.Value
import proofs.«117041_j44813688767076_1_alg».proof.Proof.Gen.ReferenceIdeal.Run
import proofs.«117041_j44813688767076_1_alg».proof.Proof.Gen.ReferenceIdeal.Read
import proofs.«117041_j44813688767076_1_alg».proof.Proof.MixSpec
import proofs.«117041_j44813688767076_1_alg».proof.Proof.BodyPieces
import proofs.«117041_j44813688767076_1_alg».proof.Proof.BlockValue
import proofs.«117041_j44813688767076_1_alg».proof.Proof.ArrayValue
import proofs.«117041_j44813688767076_1_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's output array and the reference's result both end at
    the layer's value of those arguments. -/
theorem algebraic : Cert.algebraic_KernelIdeal_ReferenceIdeal := by
  intro m g m' g' _ hagree
  refine ⟨fun c => Cert.KernelIdeal.ArrayValue.outArr m c, Cert.KernelIdeal.ArrayValue.run m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v35_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
